-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : FVec F S65536x1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S65536x1000 .f32 := Host.absf main_arg1
  let main_cst_0 : FVec F S_ .f32 := constant S_ .f32 0x7F800000#32
  let main_v5 : FVec F S65536x1000 .f32 := broadcastInDim S65536x1000 ![] bcast_S_S65536x1000 main_cst_0
  let main_v6 : IVec S65536x1000 1 := cmpf .olt main_v4 main_v5
  let main_c_1 : IVec S_ 1 := constantI S_ 1 1#1
  let main_v7 : IVec S_ 1 := (fun x v => Host.reduce IntOp.andi x v reducesTo_S65536x1000_S_d0_1 h_S_) main_v6 main_c_1
  let main_v8 : IVec S_ 1 := andi main_v3 main_v7
  main_v8
-- ==== Kernel.lean ====
abbrev S65536x1000 : Shape := ⟨2, ![65536, 1000]⟩
abbrev S2x1x1 : Shape := ⟨3, ![2, 1, 1]⟩
abbrev S2048x1000 : Shape := ⟨2, ![2048, 1000]⟩
abbrev S1x1x1 : Shape := ⟨3, ![1, 1, 1]⟩
abbrev S1x2048x1000 : Shape := ⟨3, ![1, 2048, 1000]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S2048x1000, .f32⟩
  | .local _ .vmem, ⟨1, _⟩ => ⟨S2048x1000, .f32⟩
  | .local _ .vmem, ⟨2, _⟩ => ⟨S2048x1000, .f32⟩
  | .local _ .vmem, ⟨3, _⟩ => ⟨S2048x1000, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S2048x1000_S2048x1000_0_0 : ∀ a, (![0, 0] : Fin 2 → Nat) a + S2048x1000.size a ≤ S2048x1000.size a
  h_S2048x1000 : 0 < S2048x1000.numel
  shapeCasts_S2048x1000_S1x2048x1000 : S2048x1000.ShapeCasts S1x2048x1000
  reduces_S1x2048x1000_S1 : S1x2048x1000.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S65536x1000.size a
  hwx0_0 : ∀ i : grid0.Coords, EltTy.bits .f32 = 32 ∨ (Rect.block (s := S65536x1000) S2048x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1000.size a ≤ S65536x1000.size a
  hwx0_1 : ∀ i : grid0.Coords, EltTy.bits .f32 = 32 ∨ (Rect.block (s := S65536x1000) S2048x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x1000 : Shape := ⟨2, ![65536, 1000]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S_, .f32⟩
  | .hbm, ⟨3, _⟩ => ⟨S65536x1000, .f32⟩
  | .hbm, ⟨4, _⟩ => ⟨S65536x1000, .f32⟩
  | .hbm, ⟨5, _⟩ => ⟨S_, .f32⟩
  | .hbm, ⟨6, _⟩ => ⟨S65536x1000, .f32⟩
  | .hbm, ⟨7, _⟩ => ⟨S65536x1000, .f32⟩
  | .hbm, ⟨8, _⟩ => ⟨S_, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536x1000, .f32⟩
  | .hbm, ⟨13, _⟩ => ⟨S65536x1000, .f32⟩
  | .hbm, ⟨14, _⟩ => ⟨S65536x1000, .f32⟩
  | .hbm, ⟨15, _⟩ => ⟨S65536x1000, .f32⟩
  | .hbm, ⟨16, _⟩ => ⟨S_, .f32⟩
  | .hbm, ⟨17, _⟩ => ⟨S65536x1000, .f32⟩
  | .hbm, ⟨18, _⟩ => ⟨S65536x1000, .f32⟩
  | .hbm, ⟨19, _⟩ => ⟨S65536x1000, .f32⟩
  | .hbm, ⟨20, _⟩ => ⟨S_, .f32⟩
  | .hbm, ⟨21, _⟩ => ⟨S65536x1000, .f32⟩
  | .hbm, ⟨22, _⟩ => ⟨S65536x1000, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts₀]

class Facts : Prop extends Facts₀ where

variable [Facts]
-- ==== Proof.KernelPieces.lean ====
/-
  What one grid point of the loss kernel leaves behind, read off the stores the symbolic run found.

  The kernel keeps a one-element scratch accumulator across the grid. At a point it loads the two input tiles `x0`, `x1`
  and the accumulator, and stores back "accumulator + the tile's sum of terms" (the payload `k0_pay2`). At the first point of
  a half (grid column 0) it first stores zero (`k0_pay1`) and the load reads that zero back; at the last point of a half
  (grid column 15) it also copies the fresh accumulator into the output block. So, whatever the instance:
    first point of a half   scratch = pay2 x0 x1 zero
    any other point         scratch = pay2 x0 x1 (what the point before left)
    last point of a half    output block = the same value as the scratch.
-/
import proofs.«137890_j24773371364064_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a half: the zero is stored, read back, and the tile's sum added to it. -/
theorem scratch_first (c : Dev nD) (i : grid0.Coords) (a2 : Memref sig .tc .vmem S2048x1000 .f32) (h2 : a2.IsWhole)
    (a3 : Memref sig .tc .vmem S2048x1000 .f32) (h3 : a3.IsWhole) (a4 : Memref sig .tc .vmem S1x1x1 .f32) (h4 : a4.IsWhole)
    (a5 : Memref sig .tc .vmem S1x1x1 .f32) (h5 : a5.IsWhole) (hc0 : cond0_0 i) (hc1 : ¬cond0_1 i)
    (x0 x1 : Vec F S2048x1000 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S2048x1000) hz2]

/-- A middle point: the tile's sum is added to what the point before left. -/
theorem scratch_middle (c : Dev nD) (i : grid0.Coords) (a2 : Memref sig .tc .vmem S2048x1000 .f32) (h2 : a2.IsWhole)
    (a3 : Memref sig .tc .vmem S2048x1000 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : ¬cond0_1 i)
    (x0 x1 : Vec F S2048x1000 .f32) (xs : Vec F S1x1x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz3]
  simp only [View.readAt_eq_ld, h2.read_unread, h3.read_unread, h5.read_unread, View.ld_unit_zero (S := S2048x1000) hz2,
    View.ld_unit_zero (S := S1x1x1) hz3]

/-- Last point of a half, the scratch: as at a middle point. -/
theorem scratch_last (c : Dev nD) (i : grid0.Coords) (a2 : Memref sig .tc .vmem S2048x1000 .f32) (h2 : a2.IsWhole)
    (a3 : Memref sig .tc .vmem S2048x1000 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 x1 : Vec F S2048x1000 .f32) (xs : Vec F S1x1x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz3]
  simp only [View.readAt_eq_ld, h2.read_unread, h3.read_unread, h5.read_unread, View.ld_unit_zero (S := S2048x1000) hz2,
    View.ld_unit_zero (S := S1x1x1) hz3]

/-- Last point of a half, the output block: the scratch just stored, read back and copied. -/
theorem block_last (c : Dev nD) (i : grid0.Coords) (a2 : Memref sig .tc .vmem S2048x1000 .f32) (h2 : a2.IsWhole)
    (a3 : Memref sig .tc .vmem S2048x1000 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 x1 : Vec F S2048x1000 .f32) (xs : Vec F S1x1x1 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3, View.readCov_unit_zero (S := S1x1x1) _ hz3]
  simp only [View.readAt_eq_ld, h2.read_unread, h3.read_unread, h5.read_unread, View.ld_unit_zero (S := S2048x1000) hz2,
    View.ld_unit_zero (S := S1x1x1) hz3]

end Cert.KernelIdeal.Pieces

end
-- ==== Proof.LossSum.lean ====
/-
  The mathematics of the correntropy loss, with no program in sight.

  For two arrays `A`, `B` of shape [65536, 1000] over the extended reals, one entry's term is
  `term a b = 1 - exp (c * (((a - 1/2) * 2 - (b - 1/2) * 2) * ((a - 1/2) * 2 - (b - 1/2) * 2)))`, its four literals kept as
  the f32 words both programs print. The loss is the sum of the terms over all entries, divided by 65536000.

  One side sums the entries in one go. The other walks the rows in 32 tiles of 2048 rows: tile `t` holds rows
  `2048 t .. 2048 t + 2047`; tiles `16 p .. 16 p + 15` are added up into partial sum `p` (two of them), and the two
  partial sums are added. Addition on the extended reals is commutative and associative (infinities included), so the
  two groupings are the same number: `total_by_tiles`. Nothing here needs the entries to be finite.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LossSum

open Idealize.ShloMosaic Idealize.ShloMosaic.ValueIdx

/-- The whole arrays' shape, a tile's shape, and the shape of the two partial sums. -/
abbrev SArr : Shape := ⟨2, ![65536, 1000]⟩
abbrev STile : Shape := ⟨2, ![2048, 1000]⟩
abbrev SPart : Shape := ⟨3, ![2, 1, 1]⟩

/-- One entry's term: `1 - exp (c * d²)` with `d = (a - 1/2) * 2 - (b - 1/2) * 2` and `c` the f32 nearest `-1/1000`. -/
def term (a b : EReal) : EReal :=
  Ideal.ofBits .f32 0x3F800000#32
    - Ideal.exp (Ideal.ofBits .f32 0xBA83126F#32
        * (((a - Ideal.ofBits .f32 0x3F000000#32) * Ideal.ofBits .f32 0x40000000#32
              - (b - Ideal.ofBits .f32 0x3F000000#32) * Ideal.ofBits .f32 0x40000000#32)
            * ((a - Ideal.ofBits .f32 0x3F000000#32) * Ideal.ofBits .f32 0x40000000#32
              - (b - Ideal.ofBits .f32 0x3F000000#32) * Ideal.ofBits .f32 0x40000000#32)))

/-- The loss of an array of terms: zero plus their sum, divided by the f32 word of 65536000. -/
def loss (g : SArr.Idx → EReal) : EReal :=
  Ideal.div (Ideal.ofBits .f32 0x00000000#32 + ∑ j : SArr.Idx, g j) (Ideal.ofBits .f32 0x4C7A0000#32)

/-- Row `r` of tile `t`, as a row of the whole array (tiles `0 .. 31` are inside it; the remainder only makes the
    function total). -/
def tileRow (t : ℕ) (r : Fin 2048) : Fin 65536 := ⟨(2048 * t + r.val) % 65536, Nat.mod_lt _ (by norm_num)⟩

theorem tileRow_val (t : ℕ) (ht : t < 32) (r : Fin 2048) : (tileRow t r).val = 2048 * t + r.val := by
  have := r.isLt
  exact Nat.mod_eq_of_lt (by omega)

/-- The sum of `g` over tile `t`. -/
def tileSum (g : SArr.Idx → EReal) (t : ℕ) : EReal :=
  ∑ r : Fin 2048, ∑ k : Fin 1000, g (ix2 (tileRow t r) k)

/-- Partial sum `p`: tiles `16 p .. 16 p + 15`. -/
def partSum (g : SArr.Idx → EReal) (i : SPart.Idx) : EReal :=
  ∑ j ∈ Finset.range 16, tileSum g (16 * (i 0).val + j)

/-- The running sum of a half, after its point `n`: tiles `16 (n / 16) .. n`. -/
def runSum (S : ℕ → EReal) (n : ℕ) : EReal := ∑ j ∈ Finset.range (n % 16 + 1), S (16 * (n / 16) + j)

/-- At the first point of a half the running sum is that point's tile. -/
theorem runSum_first (S : ℕ → EReal) (n : ℕ) (hn : n % 16 = 0) : runSum S n = S n := by
  unfold runSum
  rw [hn, Finset.sum_range_one]
  exact congrArg S (by omega)

/-- At any other point it is the point before's running sum plus this point's tile. -/
theorem runSum_next (S : ℕ → EReal) (n : ℕ) (hn : ¬(n + 1) % 16 = 0) : runSum S (n + 1) = runSum S n + S (n + 1) := by
  unfold runSum
  have hq : (n + 1) / 16 = n / 16 := by omega
  have hr : (n + 1) % 16 = n % 16 + 1 := by omega
  rw [hq, hr, Finset.sum_range_succ]
  exact congrArg (_ + S ·) (by omega)

/-- At the last point of a half it is the half's sixteen tiles. -/
theorem runSum_last (S : ℕ → EReal) (n : ℕ) (hn : n % 16 = 15) :
    runSum S n = ∑ j ∈ Finset.range 16, S (16 * (n / 16) + j) := by
  unfold runSum
  rw [hn]

/-- A sum over `m * n` consecutive naturals, cut into `m` stretches of `n`. -/
theorem sum_fin_stretches {M : Type*} [AddCommMonoid M] (m n N : ℕ) (h : m * n = N) (f : ℕ → M) :
    ∑ R : Fin N, f R.val = ∑ p : Fin m, ∑ r : Fin n, f (n * p.val + r.val) := by
  subst h
  rw [← (finProdFinEquiv (m := m) (n := n)).sum_comp fun R => f R.val, Fintype.sum_prod_type]
  refine Finset.sum_congr rfl fun p _ => Finset.sum_congr rfl fun r _ => ?_
  rw [finProdFinEquiv_apply_val, Nat.add_comm]

/-- A rank-3 index set with two unit axes is its first coordinate's range. -/
def partEquiv : SPart.Idx ≃ Fin 2 where
  toFun i := i 0
  invFun p := ix3 p (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- THE REGROUPING: the two partial sums of sixteen tile sums each add up to the sum over the whole array. -/
theorem total_by_tiles (g : SArr.Idx → EReal) : ∑ i : SPart.Idx, partSum g i = ∑ j : SArr.Idx, g j := by
  rw [sum_idx2 g]
  -- rows, by tiles
  have hrows : ∑ R : Fin 65536, ∑ k : Fin 1000, g (ix2 R k) = ∑ t : Fin 32, tileSum g t.val := by
    have e := sum_fin_stretches 32 2048 65536 (by norm_num)
      (fun R => if h : R < 65536 then ∑ k : Fin 1000, g (ix2 (⟨R, h⟩ : Fin 65536) k) else 0)
    have l : ∀ R : Fin 65536, (∑ k : Fin 1000, g (ix2 R k))
        = (fun R : ℕ => if h : R < 65536 then ∑ k : Fin 1000, g (ix2 (⟨R, h⟩ : Fin 65536) k) else 0) R.val :=
      fun R => by simp only [R.isLt, dite_true]
    rw [Finset.sum_congr rfl fun R _ => l R, e]
    refine Finset.sum_congr rfl fun t _ => ?_
    unfold tileSum
    refine Finset.sum_congr rfl fun r _ => ?_
    have hv := tileRow_val t.val t.isLt r
    have hlt : 2048 * t.val + r.val < 65536 := by have := t.isLt; have := r.isLt; omega
    simp only [hlt, dite_true]
    refine Finset.sum_congr rfl fun k _ => congrArg g (congrArg (fun R => ix2 R k) (Fin.ext hv.symm))
  -- tiles, by halves
  have hhalves : ∑ t : Fin 32, tileSum g t.val = ∑ p : Fin 2, ∑ j : Fin 16, tileSum g (16 * p.val + j.val) :=
    sum_fin_stretches 2 16 32 (by norm_num) (tileSum g)
  rw [hrows, hhalves, ← partEquiv.symm.sum_comp (partSum g)]
  refine Finset.sum_congr rfl fun p _ => ?_
  unfold partSum
  rw [Finset.sum_range]
  rfl

end Cert.LossSum

end
-- ==== Proof.KernelFold.lean ====
/-
  The scratch accumulator of the loss kernel, point by point, on the extended reals.

  Read at the ideal instance, the update a point stores is "what the accumulator held + the sum, over the point's
  2048 x 1000 tile, of the entries' terms" (`pay2_apply`), and the reset stores `0` (`pay1_apply`). Grid point `t`
  (of 32, in the order 2 x 16) reads tile `t` of both arrays: rows `2048 t .. 2048 t + 2047` (`tileA_apply`,
  `tileB_apply`), so its tile sum is `tileSum terms t`. Hence, by induction on the point, after point `n` the accumulator
  holds the running sum of its half, tiles `16 (n / 16) .. n` (`scratch_after`); and at the last point of a half the output
  block holds the same number (`block_after_last`): the half's sixteen tile sums.
-/
import proofs.«137890_j24773371364064_1_alg».proof.Proof.KernelPieces
import proofs.«137890_j24773371364064_1_alg».proof.Proof.LossSum
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen Cert.KernelIdeal.Pieces Cert.LossSum

/-- The update at an index: the old accumulator plus the sum of the tile's terms. The lane reduction over both tile
    axes is the sum over every index of the re-shaped tile, and the re-shaping is a bijection of index sets. -/
theorem pay2_apply (x0 x1 : Vec Ideal S2048x1000 .f32) (xs : Vec Ideal S1x1x1 .f32) (y : S1x1x1.Idx) :
    k0_pay2 (F := Ideal) x0 x1 xs y = xs y + ∑ j : S2048x1000.Idx, term (x0 j) (x1 j) := by
  unfold k0_pay2
  dsimp only
  rw [shapeCast_self, addf_apply, broadcast_apply]
  refine congrArg (xs y + ·) ?_
  refine (Ideal.multiReduction_add_total (s := S1x2048x1000) (t := S1) _ 0x00000000#32 reduces_S1x2048x1000_S1
    (by decide) (.inl rfl) rfl _).trans ?_
  exact Equiv.sum_comp (Shape.reshapeEquiv shapeCasts_S2048x1000_S1x2048x1000) (fun j => term (x0 j) (x1 j))

/-- The reset's value is the extended real `0`. -/
theorem pay1_apply (y : S1x1x1.Idx) : k0_pay1 (F := Ideal) y = 0 := by
  unfold k0_pay1
  rw [shapeCast_self, broadcast_apply]
  exact Ideal.ofBits_zero_f32

variable (m : (ℓ : Loc nD τ sig) → Buf (Elt Ideal) ℓ)

/-- The two argument arrays and the two input tiles of a point, under their literal types. -/
abbrev arrA (c : Dev nD) : Vec Ideal S65536x1000 .f32 := m ((c : Thread nD τ).loc main_arg0)
abbrev arrB (c : Dev nD) : Vec Ideal S65536x1000 .f32 := m ((c : Thread nD τ).loc main_arg1)
abbrev tileA (c : Dev nD) (t : Fin cfg0.N) : Vec Ideal S2048x1000 .f32 := iblk m c 0 t
abbrev tileB (c : Dev nD) (t : Fin cfg0.N) : Vec Ideal S2048x1000 .f32 := iblk m c 1 t

/-- Every entry's term, over the whole arrays. -/
def terms (c : Dev nD) : SArr.Idx → EReal := fun j => term (arrA m c j) (arrB m c j)

/-- Both inputs' index maps send grid point `t` to row block `t`, column block `0`: decided over the 32 points. -/
theorem in_index : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

theorem point_lt (t : Fin cfg0.N) : t.val < 32 := lt_of_lt_of_eq t.isLt (show cfg0.N = 32 from N_0)

/-- Tile `t` of the first array, entry `(r, k)`, is the array's entry `(2048 t + r, k)`. -/
theorem tileA_apply (c : Dev nD) (t : Fin cfg0.N) (r : Fin 2048) (k : Fin 1000) :
    tileA m c t (ix2 r k) = arrA m c (ix2 (tileRow t.val r) k) := by
  have hi := in_index t
  have hv := tileRow_val t.val (point_lt t) r
  unfold tileA iblk
  rw [View.read_apply]
  show V m c main_arg0 _ = m (c.tc.loc main_arg0) _
  refine (congrFun (V_main_arg0 m c) _).trans (congrArg (m (c.tc.loc main_arg0)) ?_)
  funext a
  apply Fin.ext
  match a with
  | ⟨0, _⟩ => show win0_0.index t 0 * 2048 + 1 * r.val = (tileRow t.val r).val; rw [hi.1, hv]; omega
  | ⟨1, _⟩ => show win0_0.index t 1 * 1000 + 1 * k.val = k.val; rw [hi.2.1]; omega

/-- The same for the second array. -/
theorem tileB_apply (c : Dev nD) (t : Fin cfg0.N) (r : Fin 2048) (k : Fin 1000) :
    tileB m c t (ix2 r k) = arrB m c (ix2 (tileRow t.val r) k) := by
  have hi := in_index t
  have hv := tileRow_val t.val (point_lt t) r
  unfold tileB iblk
  rw [View.read_apply]
  show V m c main_arg1 _ = m (c.tc.loc main_arg1) _
  refine (congrFun (V_main_arg1 m c) _).trans (congrArg (m (c.tc.loc main_arg1)) ?_)
  funext a
  apply Fin.ext
  match a with
  | ⟨0, _⟩ => show win0_1.index t 0 * 2048 + 1 * r.val = (tileRow t.val r).val; rw [hi.2.2.1, hv]; omega
  | ⟨1, _⟩ => show win0_1.index t 1 * 1000 + 1 * k.val = k.val; rw [hi.2.2.2]; omega

/-- So the sum of the terms over point `t`'s two tiles is tile `t`'s sum of the whole arrays' terms. -/
theorem tile_terms (c : Dev nD) (t : Fin cfg0.N) :
    ∑ j : S2048x1000.Idx, term (tileA m c t j) (tileB m c t j) = tileSum (terms m c) t.val := by
  rw [sum_idx2]
  unfold tileSum terms
  refine Finset.sum_congr rfl fun r _ => Finset.sum_congr rfl fun k _ => ?_
  rw [tileA_apply, tileB_apply]

/-- At the first point of a half the accumulator ends at that point's tile sum (`0 +` it). -/
theorem scratch_at_first (c : Dev nD) (t : Fin cfg0.N) (h0 : t.val % 16 = 0) (y : S1x1x1.Idx) :
    (outsAt0 m c t.val t.isLt).2 y = tileSum (terms m c) t.val := by
  have h1 : ¬t.val % 16 = 15 := by omega
  rw [outsAt0_A m c t h0 h1]
  dsimp only
  refine (congrFun (scratch_first (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (tileA m c t) (tileB m c t)) y).trans ?_
  refine (pay2_apply (tileA m c t) (tileB m c t) _ y).trans ?_
  rw [pay1_apply, zero_add, tile_terms]

/-- At any other point it ends at what the point before left plus this point's tile sum. -/
theorem scratch_at_next (c : Dev nD) (t : Fin cfg0.N) (h0 : ¬t.val % 16 = 0) (y : S1x1x1.Idx) :
    (outsAt0 m c t.val t.isLt).2 y
      = (outsAt0 m c (t.val - 1) (Nat.lt_of_le_of_lt (Nat.sub_le _ _) t.isLt)).2 y + tileSum (terms m c) t.val := by
  by_cases h1 : t.val % 16 = 15
  · rw [outsAt0_C m c t h0 h1]
    dsimp only
    refine (congrFun (scratch_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (tileA m c t) (tileB m c t)
      (outsAt0 m c (t.val - 1) (Nat.lt_of_le_of_lt (Nat.sub_le _ _) t.isLt)).2) y).trans ?_
    refine (pay2_apply (tileA m c t) (tileB m c t) _ y).trans ?_
    rw [tile_terms]
  · rw [outsAt0_B m c t h0 h1]
    dsimp only
    refine (congrFun (scratch_middle (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (tileA m c t) (tileB m c t)
      (outsAt0 m c (t.val - 1) (Nat.lt_of_le_of_lt (Nat.sub_le _ _) t.isLt)).2) y).trans ?_
    refine (pay2_apply (tileA m c t) (tileB m c t) _ y).trans ?_
    rw [tile_terms]

/-- At the last point of a half the output block ends at the very value the accumulator ends at. -/
theorem block_at_last (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  exact (block_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (tileA m c t) (tileB m c t)
      (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (tileA m c t) (tileB m c t)
      (outsAt0 m c (t.val - 1) (Nat.lt_of_le_of_lt (Nat.sub_le _ _) t.isLt)).2).symm

/-- THE FOLD: after point `n` the accumulator holds the running sum of its half. -/
theorem scratch_after (c : Dev nD) : ∀ (n : ℕ) (h : n < cfg0.N) (y : S1x1x1.Idx),
    (outsAt0 m c n h).2 y = runSum (tileSum (terms m c)) n
  | 0, h, y => (scratch_at_first m c ⟨0, h⟩ (Nat.zero_mod 16) y).trans (runSum_first _ 0 (Nat.zero_mod 16)).symm
  | n + 1, h, y => by
    by_cases h0 : (n + 1) % 16 = 0
    · exact (scratch_at_first m c ⟨n + 1, h⟩ h0 y).trans (runSum_first _ (n + 1) h0).symm
    · refine (scratch_at_next m c ⟨n + 1, h⟩ h0 y).trans ?_
      rw [runSum_next _ n h0]
      exact congrArg (· + tileSum (terms m c) (n + 1)) (scratch_after c n (Nat.lt_of_succ_lt h) y)

/-- So at the last point of a half the output block holds the half's sixteen tile sums. -/
theorem block_after_last (c : Dev nD) (t : Fin cfg0.N) (h1 : t.val % 16 = 15) (y : S1x1x1.Idx) :
    (outsAt0 m c t.val t.isLt).1 y = ∑ j ∈ Finset.range 16, tileSum (terms m c) (16 * (t.val / 16) + j) := by
  rw [block_at_last m c t h1, scratch_after m c t.val t.isLt y, runSum_last _ _ h1]

end Cert.KernelIdeal.Fold

end
-- ==== Proof.KernelResult.lean ====
/-
  What the loss kernel's program returns, on the extended reals.

  The pallas_call's output array has shape [2, 1, 1]; its block `(p, 0, 0)` is written back once, after the last point of
  half `p` (grid points 15 and 31), with the half's sixteen tile sums (KernelFold). The two blocks tile the array, so after
  the region the array holds the two partial sums (`parts_final`). The host lines after the region add the two from `0`
  and divide by the f32 word of 65536000; regrouping the sum (`LossSum.total_by_tiles`) that is the loss of the whole
  arrays' terms (`tail_result`), which `run` states of every execution.
-/
import proofs.«137890_j24773371364064_1_alg».proof.Proof.KernelFold
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Fold Cert.LossSum

variable (m : (ℓ : Loc nD τ sig) → Buf (Elt Ideal) ℓ) (ρ : Dev nD → PrngReg)

/-- The two partial sums, as contents of the pallas_call's output array. -/
abbrev parts (c : Dev nD) : Buf (Elt Ideal) ((c : Thread nD τ).loc main_v0) := fun i => partSum (terms m c) i

/-- The program's result: the loss of the whole arrays' terms. -/
abbrev result (c : Dev nD) : Buf (Elt Ideal) ((c : Thread nD τ).loc main_v2) := fun _ => loss (terms m c)

/-- The output's index map sends grid point `t` to block `(t / 16, 0, 0)`, and no block is cut: decided over the grid. -/
theorem out_index : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem out_xsize : ∀ t : Fin cfg0.N, ∀ a, win0_2.xsize (grid0.coords t) a = 1 :=
  (by decide +kernel : ∀ t : Fin grid0.N, ∀ a, win0_2.xsize (grid0.coords t) a = 1)

/-- What a write-back writes is the partial sums' array read through the block. -/
theorem flushed_eq (c : Dev nD) (t : Fin cfg0.N) (hf : (cfg0.win 2).flush t = true) :
    (dats m 0 c).flushed 2 t = ((cfg0.win 2).blk t).view.read (Elt Ideal) (parts m c) := by
  have h15 : t.val % 16 = 15 := (flush0_2 t).mp hf
  have hi := out_index t
  show (cfg0.win 2).cut (grid0.coords t) ((dats m 0 c).after 2 t) = _
  rw [after0_2]
  funext y
  rw [View.read_apply]
  refine (block_after_last m c t h15 y).trans ?_
  show _ = partSum (terms m c) _
  unfold partSum
  refine Finset.sum_congr rfl fun j _ => congrArg (fun q => tileSum (terms m c) (16 * q + j)) ?_
  show t.val / 16 = win0_2.index t 0 * 1 + 1 * (y 0).val
  have : (y 0).val < 1 := (y 0).isLt
  rw [hi.1]; omega

/-- Every index of the output array lies in the block written back after its half. -/
theorem covered (c : Dev nD) (i : S2x1x1.Idx) :
    ∃ t : Fin cfg0.N, (cfg0.win 2).flush t = true ∧ i ∈ ((cfg0.win 2).blk t).view.set := by
  have hp : (i 0).val < 2 := (i 0).isLt
  have h1 : (i 1).val < 1 := (i 1).isLt
  have h2 : (i 2).val < 1 := (i 2).isLt
  have hN : cfg0.N = 32 := N_0
  have hlt : 16 * (i 0).val + 15 < cfg0.N := by rw [hN]; omega
  refine ⟨⟨16 * (i 0).val + 15, hlt⟩, (flush0_2 _).mpr (by show (16 * (i 0).val + 15) % 16 = 15; omega), ?_⟩
  have hi := out_index ⟨16 * (i 0).val + 15, hlt⟩
  have hx := out_xsize ⟨16 * (i 0).val + 15, hlt⟩
  have hq : (16 * (i 0).val + 15) / 16 = (i 0).val := by omega
  show i ∈ ((View.whole main_v0).slice (win0_2.rect ⟨16 * (i 0).val + 15, hlt⟩)).set
  rw [View.set_slice_whole, Rect.mem_set_unit]
  intro a
  match a with
  | ⟨0, _⟩ =>
    show win0_2.index ⟨16 * (i 0).val + 15, hlt⟩ 0 * 1 ≤ (i 0 : Nat)
      ∧ (i 0 : Nat) < win0_2.index ⟨16 * (i 0).val + 15, hlt⟩ 0 * 1 + win0_2.xsize (grid0.coords ⟨16 * (i 0).val + 15, hlt⟩) 0
    rw [hi.1, hx 0]; dsimp only; omega
  | ⟨1, _⟩ =>
    show win0_2.index ⟨16 * (i 0).val + 15, hlt⟩ 1 * 1 ≤ (i 1 : Nat)
      ∧ (i 1 : Nat) < win0_2.index ⟨16 * (i 0).val + 15, hlt⟩ 1 * 1 + win0_2.xsize (grid0.coords ⟨16 * (i 0).val + 15, hlt⟩) 1
    rw [hi.2.1, hx 1]; omega
  | ⟨2, _⟩ =>
    show win0_2.index ⟨16 * (i 0).val + 15, hlt⟩ 2 * 1 ≤ (i 2 : Nat)
      ∧ (i 2 : Nat) < win0_2.index ⟨16 * (i 0).val + 15, hlt⟩ 2 * 1 + win0_2.xsize (grid0.coords ⟨16 * (i 0).val + 15, hlt⟩) 2
    rw [hi.2.2, hx 2]; omega

/-- So after the region the output array holds the two partial sums. -/
theorem parts_final (c : Dev nD) : (dats m 0 c).arrAt 2 cfg0.N = parts m c :=
  (dats m 0 c).arrAt_eq_of_cover 2 (parts m c) (flushed_eq m c) (covered c)

/-- The host lines after the region: `0` plus the two partial sums, divided by the word of 65536000, is the loss. -/
theorem tail_result (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0)
      = parts m c from (Pipeline.withArrays_arr spec0 launch0.win.arr_inj c _ _ 2).trans (parts_final m c)]
  funext i
  show Ideal.div (Ideal.hostReduceAdd reducesTo_S2x1x1_S_d0_1_2 (parts m c) (Ideal.ofBits .f32 0x00000000#32) i)
    (Ideal.ofBits .f32 0x4C7A0000#32) = loss (terms m c)
  rw [Ideal.hostReduceAdd_total reducesTo_S2x1x1_S_d0_1_2 (fun b => b.elim0), total_by_tiles]
  rfl

/-- Every execution of the program ends with the loss in its result and its two arguments as they were. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (by decide)).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefSide.lean ====
/-
  The reference computes the loss in one go.

  Its host program maps every entry `(a, b)` of the two arrays to `1 - exp (c * ((a - 1/2) * 2 - (b - 1/2) * 2)²)` with the
  same four f32 literals as the kernel (the square as a product), sums all 65536000 of them from `0`, and divides by the
  f32 word of 65536000. Read one operation at a time at the ideal instance that is `LossSum.loss` of the array of terms.
-/
import proofs.«137890_j24773371364064_1_alg».proof.Defs
import proofs.«137890_j24773371364064_1_alg».proof.Proof.Gen.ReferenceIdeal.Run
import proofs.«137890_j24773371364064_1_alg».proof.Proof.Gen.ReferenceIdeal.Read
import proofs.«137890_j24773371364064_1_alg».proof.Proof.LossSum

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.LossSum

/-- The array the reference sums holds, at every index, that entry's term. -/
theorem summand_apply (x0 x1 : (⟨S65536x1000, .f32⟩ : BufTy).Contents (Elt Ideal)) (j : S65536x1000.Idx) :
    val_main_v14 (F := Ideal) x0 x1 j = term (x0 j) (x1 j) := by
  rw [val_main_v14_apply, val_main_v13_apply, val_main_cst_4_apply, val_main_v12_apply, val_main_v11_apply,
    val_main_v10_apply, val_main_cst_3_apply, val_main_v9_apply, val_main_v8_apply, val_main_v7_apply, val_main_v5_apply,
    val_main_v4_apply, val_main_cst_1_apply, val_main_v6_apply, val_main_cst_2_apply, val_main_v3_apply, val_main_v1_apply,
    val_main_v0_apply, val_main_cst_apply, val_main_v2_apply, val_main_cst_0_apply]
  rfl

/-- The reference's result is the loss of the terms of its two arguments. -/
theorem result_apply (x0 x1 : (⟨S65536x1000, .f32⟩ : BufTy).Contents (Elt Ideal)) (i : S_.Idx) :
    val_main_v16 (F := Ideal) x0 x1 i = loss fun j => term (x0 j) (x1 j) := by
  rw [val_main_v16_apply, val_main_v15_apply, val_main_cst_6_apply, val_main_cst_5_apply]
  simp only [summand_apply]
  rfl

end Cert.ReferenceIdeal.RefValue

end
-- ==== Proof.lean ====
/-
  The correntropy loss, kernel against reference, over the extended reals.

  Both programs map each entry `(a, b)` of two [65536, 1000] arrays to `1 - exp (c * ((a - 1/2) * 2 - (b - 1/2) * 2)²)`
  with the same f32 literals, add the 65536000 terms up from `0` and divide by the f32 word of 65536000. The reference
  sums them in one reduction. The kernel walks the rows in 32 tiles of 2048: a one-element accumulator is reset at the first
  tile of each half of 16 tiles, gains one tile sum per grid point, and is copied out after the half's last tile; the host then
  adds the two partial sums. Addition on the extended reals is commutative and associative, infinities included, so both
  groupings give one number (Proof/LossSum.lean `total_by_tiles`); no finiteness of the inputs is used.

  The three frames are the generated ones (the reference's is its generated run with the result dropped); the ideal pass
  rewrote nothing, so the preservation claim is `True`; the value claim pairs the kernel's run read back
  (Proof/KernelResult.lean `run`) with the reference's generated run read one operation at a time (Proof/RefSide.lean).
-/
import proofs.«137890_j24773371364064_1_alg».proof.Defs
import proofs.«137890_j24773371364064_1_alg».proof.Proof.Gen.Kernel
import proofs.«137890_j24773371364064_1_alg».proof.Proof.Gen.Kernel.Skeleton
import proofs.«137890_j24773371364064_1_alg».proof.Proof.Gen.Kernel.Launch
import proofs.«137890_j24773371364064_1_alg».proof.Proof.Gen.Kernel.Points
import proofs.«137890_j24773371364064_1_alg».proof.Proof.Gen.Kernel.Frame
import proofs.«137890_j24773371364064_1_alg».proof.Proof.Gen.KernelIdeal
import proofs.«137890_j24773371364064_1_alg».proof.Proof.Gen.KernelIdeal.Skeleton
import proofs.«137890_j24773371364064_1_alg».proof.Proof.Gen.KernelIdeal.Launch
import proofs.«137890_j24773371364064_1_alg».proof.Proof.Gen.KernelIdeal.Points
import proofs.«137890_j24773371364064_1_alg».proof.Proof.Gen.KernelIdeal.Frame
import proofs.«137890_j24773371364064_1_alg».proof.Proof.Gen.ReferenceIdeal
import proofs.«137890_j24773371364064_1_alg».proof.Proof.Gen.ReferenceIdeal.Run
import proofs.«137890_j24773371364064_1_alg».proof.Proof.Gen.ReferenceIdeal.Read
import proofs.«137890_j24773371364064_1_alg».proof.Proof.Gen.Pre_finite_inputs
import proofs.«137890_j24773371364064_1_alg».proof.Proof.KernelResult
import proofs.«137890_j24773371364064_1_alg».proof.Proof.RefSide
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the loss of the terms of the same two arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  funext i
  exact Cert.ReferenceIdeal.RefValue.result_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
